-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x64x256x256 : Shape := ⟨5, ![1, 32, 64, 256, 256]⟩
abbrev S_ : Shape := ⟨0, ![]⟩

class Facts : Prop where
  bcast_S_S1x32x64x256x256 : S_.BroadcastsInDim S1x32x64x256x256 (![] : Fin 0 → Fin S1x32x64x256x256.rank)
  reducesTo_S1x32x64x256x256_S_d0_1_2_3_4 : S1x32x64x256x256.ReducesTo [0, 1, 2, 3, 4] S_
  h_S_ : 0 < S_.numel

variable [Facts]

def fn {F : FTy → Type} [FloatOps F] (main_arg0 : FVec F S1x32x64x256x256 .f32) : IVec S_ 1 :=
  let main_v0 : FVec F S1x32x64x256x256 .f32 := Host.absf main_arg0
  let main_cst : FVec F S_ .f32 := constant S_ .f32 0x7F800000#32
  let main_v1 : FVec F S1x32x64x256x256 .f32 := broadcastInDim S1x32x64x256x256 ![] bcast_S_S1x32x64x256x256 main_cst
  let main_v2 : IVec S1x32x64x256x256 1 := cmpf .olt main_v0 main_v1
  let main_c : IVec S_ 1 := constantI S_ 1 1#1
  let main_v3 : IVec S_ 1 := (fun x v => Host.reduce IntOp.andi x v reducesTo_S1x32x64x256x256_S_d0_1_2_3_4 h_S_) main_v2 main_c
  main_v3
-- ==== Kernel.lean ====
abbrev S1x32x64x256x256 : Shape := ⟨5, ![1, 32, 64, 256, 256]⟩
abbrev S2048x256x256 : Shape := ⟨3, ![2048, 256, 256]⟩
abbrev S2048x128x128 : Shape := ⟨3, ![2048, 128, 128]⟩
abbrev S1x256x256 : Shape := ⟨3, ![1, 256, 256]⟩
abbrev S1x128x128 : Shape := ⟨3, ![1, 128, 128]⟩
abbrev S1x256x128x2 : Shape := ⟨4, ![1, 256, 128, 2]⟩
abbrev S1x256x128 : Shape := ⟨3, ![1, 256, 128]⟩
abbrev S1x128x2x128 : Shape := ⟨4, ![1, 128, 2, 128]⟩
abbrev S1x32x64x128x128 : Shape := ⟨5, ![1, 32, 64, 128, 128]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S1x32x64x256x256, .f32⟩
  | .hbm, ⟨1, _⟩ => ⟨S2048x256x256, .f32⟩
  | .hbm, ⟨2, _⟩ => ⟨S2048x128x128, .f32⟩
  | .hbm, ⟨3, _⟩ => ⟨S1x32x64x128x128, .f32⟩
  | .hbm, ⟨4, _⟩ => ⟨S_, .i32⟩
  | .local _ .vmem, ⟨0, _⟩ => ⟨S1x256x256, .f32⟩
  | .local _ .vmem, ⟨1, _⟩ => ⟨S1x256x256, .f32⟩
  | .local _ .vmem, ⟨2, _⟩ => ⟨S1x128x128, .f32⟩
  | .local _ .vmem, ⟨3, _⟩ => ⟨S1x128x128, .f32⟩
  | _, _ => ⟨S1x32x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1x32x64x256x256_S2048x256x256 : S1x32x64x256x256.ShapeCasts S2048x256x256
  inb_S1x256x256_S1x256x256_0_0_0 : ∀ a, (![0, 0, 0] : Fin 3 → Nat) a + S1x256x256.size a ≤ S1x256x256.size a
  h_S1x256x256 : 0 < S1x256x256.numel
  shapeCasts_S1x256x256_S1x256x256 : S1x256x256.ShapeCasts S1x256x256
  shapeCasts_S1x256x256_S1x256x128x2 : S1x256x256.ShapeCasts S1x256x128x2
  reduces_S1x256x128x2_S1x256x128 : S1x256x128x2.Reduces [3] S1x256x128
  shapeCasts_S1x256x128_S1x128x2x128 : S1x256x128.ShapeCasts S1x128x2x128
  reduces_S1x128x2x128_S1x128x128 : S1x128x2x128.Reduces [2] S1x128x128
  inb_S1x128x128_S1x128x128_0_0_0 : ∀ a, (![0, 0, 0] : Fin 3 → Nat) a + S1x128x128.size a ≤ S1x128x128.size a
  h_S1x128x128 : 0 < S1x128x128.numel
  shapeCasts_S2048x128x128_S1x32x64x128x128 : S2048x128x128.ShapeCasts S1x32x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S2048x256x256.size a
  hwx0_0 : ∀ i : grid0.Coords, EltTy.bits .f32 = 32 ∨ (Rect.block (s := S2048x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S2048x128x128.size a
  hwx0_1 : ∀ i : grid0.Coords, EltTy.bits .f32 = 32 ∨ (Rect.block (s := S2048x128x128) S1x128x128.size (cc0_transform_1 i) (hinb0_1 i)).WholeWords (EltTy.packing .f32)

variable [Facts₀]

abbrev win0_0 : Pipeline.Window sig grid0 :=
  Pipeline.Window.ofSpec (Memref.whole main_v0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x32x64x256x256 : Shape := ⟨5, ![1, 32, 64, 256, 256]⟩
abbrev S_ : Shape := ⟨0, ![]⟩
abbrev S1x32x64x128x128 : Shape := ⟨5, ![1, 32, 64, 128, 128]⟩

abbrev nBuf : Space → Nat
  | .hbm => 5
  | .vmem => 0
  | .smem => 0
  | _ => 0

abbrev bufTy : (tb : Table) → Fin (tcTables nBuf tb) → BufTy
  | .hbm, ⟨0, _⟩ => ⟨S1x32x64x256x256, .f32⟩
  | .hbm, ⟨1, _⟩ => ⟨S_, .f32⟩
  | .hbm, ⟨2, _⟩ => ⟨S_, .f32⟩
  | .hbm, ⟨3, _⟩ => ⟨S1x32x64x128x128, .f32⟩
  | .hbm, ⟨4, _⟩ => ⟨S_, .i32⟩
  | _, _ => ⟨S1x32x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S1x32x64x256x256_S1x32x64x128x128_w1s1p0_0_w1s1p0_0_w1s1p0_0_w2s2p0_0_w2s2p0_0 : S1x32x64x256x256.ReduceWindows (![1, 1, 1, 2, 2] : Fin 5 → Nat) ![1, 1, 1, 2, 2] ![0, 0, 0, 0, 0] ![0, 0, 0, 0, 0] S1x32x64x128x128
  h_S_ : 0 < S_.numel

variable [Facts₀]

class Facts : Prop extends Facts₀ where

variable [Facts]
-- ==== Proof.Window.lean ====
/-
  Max pooling with a 2 × 2 window and stride 2 over the last two axes, on the extended reals.

  The pooled value at (p, q) of a 256 × 256 slice is the greatest of the four entries
  (2p + a, 2q + b), a, b ∈ {0, 1}. Two ways of computing it meet here:
  * pair the columns first (view the 256 columns as 128 pairs and take each pair's maximum from −∞),
    then pair the rows of the result the same way;
  * fold the maximum from −∞ over the window's four positions in row-major order.
  Both are the maximum of the four entries, because −∞ is the least extended real and `max` is
  associative. Nothing here needs the entries to be finite.
-/
import Idealize.ShloMosaic.PureOps.Ideal.Laws
import Idealize.ShloMosaic.Lib.ValueIdx
import Idealize.ShloMosaic.Lib.Pipeline.Value

noncomputable section

namespace Cert.MaxPool

open Idealize.ShloMosaic Idealize.ShloMosaic.ValueIdx

/-- The f32 pattern of −∞ denotes the least extended real. -/
theorem negInf_eq_bot : Ideal.ofBits .f32 0xFF800000#32 = (⊥ : EReal) := by simp [Ideal.ofBits, Ideal.ieee]

/-- The maximum over a pair of positions, from a starting value. -/
theorem fold_max_pair (b : EReal) (f : Fin 2 → EReal) :
    (Finset.univ : Finset (Fin 2)).fold max b f = max (f 0) (max (f 1) b) := by
  rw [show (Finset.univ : Finset (Fin 2)) = {0, 1} from by decide]
  rw [Finset.fold_insert (by decide), Finset.fold_singleton]

/-- Position `2p + u` among 256: member `u` of pair `p`. -/
def twice (p : Fin 128) (u : Fin 2) : Fin 256 := ⟨2 * p.val + u.val, by omega⟩

@[simp] theorem twice_val (p : Fin 128) (u : Fin 2) : (twice p u).val = 2 * p.val + u.val := rfl

/-- The greatest of the four entries of a 2 × 2 window. -/
def max4 (e : Fin 2 → Fin 2 → EReal) : EReal := max (max (e 0 0) (e 0 1)) (max (e 1 0) (e 1 1))

/-- Folding the maximum from −∞ over the window's entries in row-major order gives the same. -/
theorem fold4_eq_max4 (e : Fin 2 → Fin 2 → EReal) :
    max (max (max (max ⊥ (e 0 0)) (e 0 1)) (e 1 0)) (e 1 1) = max4 e := by
  unfold max4
  rw [max_eq_right bot_le, max_assoc]

end Cert.MaxPool

end
-- ==== Proof.Pairs.lean ====
/-
  Pairing adjacent columns, then adjacent rows, of one 256 × 256 slice.

  A [1, 256, 256] slice viewed as [1, 256, 128, 2] has at (z, r, q, u) the entry (z, r, 2q + u): the view
  keeps the row-major order. Its maximum over the last axis, from −∞, is at (z, r, q) the greater of columns
  2q and 2q + 1 of row r. That [1, 256, 128] result viewed as [1, 128, 2, 128] has at (z, p, u, q) the entry
  (z, 2p + u, q), and its maximum over the axis of length 2 is at (z, p, q) the greater of rows 2p and 2p + 1.
  Together: the greatest of the four entries (2p + a, 2q + b).
-/
import proofs.«408236_j34402688041511_4_alg».proof.Proof.Window

noncomputable section

namespace Cert.MaxPool

open Idealize.ShloMosaic Idealize.ShloMosaic.ValueIdx

/-- One slice, its columns in pairs, the column pairs reduced, its rows in pairs, the pooled slice. -/
abbrev Slice : Shape := ⟨3, ![1, 256, 256]⟩
abbrev ColPairs : Shape := ⟨4, ![1, 256, 128, 2]⟩
abbrev HalfCols : Shape := ⟨3, ![1, 256, 128]⟩
abbrev RowPairs : Shape := ⟨4, ![1, 128, 2, 128]⟩
abbrev Pooled : Shape := ⟨3, ![1, 128, 128]⟩

/-- The maximum over each pair of adjacent columns. -/
theorem colPairs_max (v : Slice.Idx → EReal) (hc : Slice.ShapeCasts ColPairs) (hr : ColPairs.Reduces [3] HalfCols)
    (hφ : FKind.Formats .f32) (hacc : (0xFF800000#32 : BitVec 32) = FKind.maximumf.neutral .f32 hφ)
    (z : Fin 1) (r : Fin 256) (q : Fin 128) :
    multiReduction (F := Ideal) .maximumf [3] HalfCols (shapeCast ColPairs v hc) 0xFF800000#32 hr hφ hacc (ix3 z r q)
      = max (v (ix3 z r (twice q 0))) (v (ix3 z r (twice q 1))) := by
  refine (Ideal.multiReduction_maximumf_single _ _ hr hφ hacc _).trans ((fold_max_pair _ _).trans ?_)
  rw [Ideal.ofBits_def, negInf_eq_bot, max_eq_left bot_le]
  congr 1
  · refine shapeCast_apply v hc _ _ ?_
    rw [Shape.rowMajor_val_three, Shape.rowMajor_val_four]
    show (z.val * 256 + r.val) * 256 + (2 * q.val + 0) = ((z.val * 256 + r.val) * 128 + q.val) * 2 + 0
    omega
  · refine shapeCast_apply v hc _ _ ?_
    rw [Shape.rowMajor_val_three, Shape.rowMajor_val_four]
    show (z.val * 256 + r.val) * 256 + (2 * q.val + 1) = ((z.val * 256 + r.val) * 128 + q.val) * 2 + 1
    omega

/-- The maximum over each pair of adjacent rows. -/
theorem rowPairs_max (w : HalfCols.Idx → EReal) (hc : HalfCols.ShapeCasts RowPairs) (hr : RowPairs.Reduces [2] Pooled)
    (hφ : FKind.Formats .f32) (hacc : (0xFF800000#32 : BitVec 32) = FKind.maximumf.neutral .f32 hφ)
    (z : Fin 1) (p : Fin 128) (q : Fin 128) :
    multiReduction (F := Ideal) .maximumf [2] Pooled (shapeCast RowPairs w hc) 0xFF800000#32 hr hφ hacc (ix3 z p q)
      = max (w (ix3 z (twice p 0) q)) (w (ix3 z (twice p 1) q)) := by
  refine (Ideal.multiReduction_maximumf_single _ _ hr hφ hacc _).trans ((fold_max_pair _ _).trans ?_)
  rw [Ideal.ofBits_def, negInf_eq_bot, max_eq_left bot_le]
  congr 1
  · refine shapeCast_apply w hc _ _ ?_
    rw [Shape.rowMajor_val_three, Shape.rowMajor_val_four]
    show (z.val * 256 + (2 * p.val + 0)) * 128 + q.val = ((z.val * 128 + p.val) * 2 + 0) * 128 + q.val
    omega
  · refine shapeCast_apply w hc _ _ ?_
    rw [Shape.rowMajor_val_three, Shape.rowMajor_val_four]
    show (z.val * 256 + (2 * p.val + 1)) * 128 + q.val = ((z.val * 128 + p.val) * 2 + 1) * 128 + q.val
    omega

end Cert.MaxPool

end
-- ==== Proof.Body.lean ====
/-
  What the kernel body computes from one 256 × 256 slice: at (p, q) the greatest of the four entries
  (2p + a, 2q + b). The body views the slice's columns in pairs and reduces each pair, then views the rows of
  that result in pairs and reduces each pair; both reductions start from −∞.
-/
import proofs.«408236_j34402688041511_4_alg».proof.Proof.Gen.KernelIdeal.Skeleton
import proofs.«408236_j34402688041511_4_alg».proof.Proof.Pairs

noncomputable section

namespace Cert.MaxPool

open Idealize.ShloMosaic Idealize.ShloMosaic.ValueIdx
open Cert.KernelIdeal Cert.KernelIdeal.Gen

/-- The body's stored value at (p, q) is the 2 × 2 window's maximum of the loaded slice. -/
theorem body_apply (v0 : Vec Ideal S1x256x256 .f32) (z : Fin 1) (p q : Fin 128) :
    k0_pay1 (F := Ideal) v0 (ix3 z p q) = max4 fun a b => v0 (ix3 z (twice p a) (twice q b)) := by
  unfold k0_pay1
  refine (rowPairs_max _ _ _ _ _ z p q).trans ?_
  refine (congrArg₂ max (colPairs_max _ _ _ _ _ z (twice p 0) q) (colPairs_max _ _ _ _ _ z (twice p 1) q)).trans ?_
  simp only [shapeCast_self]
  rfl

end Cert.MaxPool

end
-- ==== Proof.Fold.lean ====
/-
  The windowed maximum the reference takes: a fold, from the initial value, over the positions of a
  [1, 1, 1, 2, 2] window placed at stride [1, 1, 1, 2, 2] with no padding, in row-major order. The window
  has four positions, (0, 0, 0, a, b) at row-major place 2a + b; placed at output index i it reads the
  input at (i₀, i₁, i₂, 2·i₃ + a, 2·i₄ + b), always inside the input, so the padding value is never read.
-/
import proofs.«408236_j34402688041511_4_alg».proof.Proof.Window

noncomputable section

namespace Cert.MaxPool

open Idealize.ShloMosaic Idealize.ShloMosaic.ValueIdx

/-- The input array, the pooled array, a scalar. -/
abbrev Whole : Shape := ⟨5, ![1, 32, 64, 256, 256]⟩
abbrev WholePooled : Shape := ⟨5, ![1, 32, 64, 128, 128]⟩
abbrev Scalar0 : Shape := ⟨0, ![]⟩
/-- The window as a shape: its positions. -/
abbrev Win : Shape := ⟨5, ![1, 1, 1, 2, 2]⟩

/-- The input entry under window position (a, b) of the window placed at output index `i`. -/
def under {α : Type} (x : Whole.Idx → α) (i : WholePooled.Idx) (a b : Fin 2) : α :=
  x (ix5 (i 0) (i 1) (i 2) (twice (i 3) a) (twice (i 4) b))

theorem foldl_finRange_of_eq {α : Type} {n k : Nat} (h : n = k) (g : α → Fin n → α) (v : α) :
    (List.finRange n).foldl g v = (List.finRange k).foldl (fun r i => g r (i.cast h.symm)) v := by
  subst h; rfl

/-- Row-major place `2a + b` of the window is position (0, 0, 0, a, b). -/
theorem win_pos (n : Fin Win.numel) (a b : Fin 2) (hn : n.val = 2 * a.val + b.val) :
    Win.rowMajor.symm n = ix5 (0 : Fin 1) (0 : Fin 1) (0 : Fin 1) a b := by
  rw [Equiv.symm_apply_eq]
  apply Fin.ext
  rw [Shape.rowMajor_val_five]
  show n.val = (((0 * 1 + 0) * 1 + 0) * 2 + a.val) * 2 + b.val
  omega

/-- The window placed at `i`, at its row-major place `2a + b`, lies inside the input and reads `under x i a b`. -/
theorem entry_eq {α : Type} (x : Whole.Idx → α) (v : α) (i : WholePooled.Idx) (hr : Whole.rank = WholePooled.rank)
    (n : Fin Win.numel) (a b : Fin 2) (hn : n.val = 2 * a.val + b.val)
    {inst : Decidable (∀ c : Fin Whole.rank, (![0, 0, 0, 0, 0] : Fin 5 → ℕ) c ≤ (i (c.cast hr)).val * (![1, 1, 1, 2, 2] : Fin 5 → ℕ) c + (Win.rowMajor.symm n c).val
        ∧ (i (c.cast hr)).val * (![1, 1, 1, 2, 2] : Fin 5 → ℕ) c + (Win.rowMajor.symm n c).val - (![0, 0, 0, 0, 0] : Fin 5 → ℕ) c < Whole.size c)} :
    @dite α (∀ c : Fin Whole.rank, (![0, 0, 0, 0, 0] : Fin 5 → ℕ) c ≤ (i (c.cast hr)).val * (![1, 1, 1, 2, 2] : Fin 5 → ℕ) c + (Win.rowMajor.symm n c).val
        ∧ (i (c.cast hr)).val * (![1, 1, 1, 2, 2] : Fin 5 → ℕ) c + (Win.rowMajor.symm n c).val - (![0, 0, 0, 0, 0] : Fin 5 → ℕ) c < Whole.size c) inst
      (fun hin => x (fun c => ⟨(i (c.cast hr)).val * (![1, 1, 1, 2, 2] : Fin 5 → ℕ) c + (Win.rowMajor.symm n c).val - (![0, 0, 0, 0, 0] : Fin 5 → ℕ) c, (hin c).2⟩))
      (fun _ => v) = under x i a b := by
  have z0 : ∀ c : Fin 5, (![0, 0, 0, 0, 0] : Fin 5 → ℕ) c = 0 := by decide
  have key : ∀ c : Fin Whole.rank, (i (c.cast hr)).val * (![1, 1, 1, 2, 2] : Fin 5 → ℕ) c + (Win.rowMajor.symm n c).val - (![0, 0, 0, 0, 0] : Fin 5 → ℕ) c
      = ((ix5 (i 0) (i 1) (i 2) (twice (i 3) a) (twice (i 4) b) : Whole.Idx) c).val := by
    intro c
    rw [win_pos n a b hn]
    match c with
    | ⟨0, _⟩ => show (i 0).val * 1 + 0 - 0 = (i 0).val; omega
    | ⟨1, _⟩ => show (i 1).val * 1 + 0 - 0 = (i 1).val; omega
    | ⟨2, _⟩ => show (i 2).val * 1 + 0 - 0 = (i 2).val; omega
    | ⟨3, _⟩ => show (i 3).val * 2 + a.val - 0 = 2 * (i 3).val + a.val; omega
    | ⟨4, _⟩ => show (i 4).val * 2 + b.val - 0 = 2 * (i 4).val + b.val; omega
  split
  · exact congrArg x (funext fun c => Fin.ext (key c))
  · rename_i hneg
    exact (hneg fun c => ⟨by rw [z0 c]; exact Nat.zero_le _, lt_of_eq_of_lt (key c) (Fin.isLt _)⟩).elim

theorem reduceWindow_apply {α : Type} (f : α → α → α) (x : Whole.Idx → α) (init : Scalar0.Idx → α)
    (h : Whole.ReduceWindows ![1, 1, 1, 2, 2] ![1, 1, 1, 2, 2] ![0, 0, 0, 0, 0] ![0, 0, 0, 0, 0] WholePooled)
    (hu : 0 < Scalar0.numel) (i : WholePooled.Idx) :
    Host.reduceWindow f ![1, 1, 1, 2, 2] ![1, 1, 1, 2, 2] ![0, 0, 0, 0, 0] ![0, 0, 0, 0, 0] x init h hu i
      = f (f (f (f (init (Shape.Idx.first hu)) (under x i 0 0)) (under x i 0 1)) (under x i 1 0)) (under x i 1 1) := by
  unfold Host.reduceWindow
  dsimp only
  rw [foldl_finRange_of_eq (show Win.numel = 4 from by decide)]
  rw [show List.finRange 4 = [0, 1, 2, 3] from by decide]
  simp only [List.foldl_cons, List.foldl_nil]
  refine congrArg₂ f (congrArg₂ f (congrArg₂ f (congrArg₂ f rfl ?_) ?_) ?_) ?_
  · exact entry_eq x _ i _ (Fin.cast (by decide : 4 = Win.numel) 0) 0 0 rfl
  · exact entry_eq x _ i _ (Fin.cast (by decide : 4 = Win.numel) 1) 0 1 rfl
  · exact entry_eq x _ i _ (Fin.cast (by decide : 4 = Win.numel) 2) 1 0 rfl
  · exact entry_eq x _ i _ (Fin.cast (by decide : 4 = Win.numel) 3) 1 1 rfl

/-- The pooled array: at each output index the greatest entry under the window placed there. -/
def pool (x : Whole.Idx → EReal) : WholePooled.Idx → EReal := fun i => max4 (under x i)

/-- The windowed fold of `max` from −∞ is the pooled array. -/
theorem reduceWindow_max (x : Whole.Idx → EReal) (init : Scalar0.Idx → EReal) (hinit : ∀ z, init z = ⊥)
    (h : Whole.ReduceWindows ![1, 1, 1, 2, 2] ![1, 1, 1, 2, 2] ![0, 0, 0, 0, 0] ![0, 0, 0, 0, 0] WholePooled)
    (hu : 0 < Scalar0.numel) :
    Host.reduceWindow (max : EReal → EReal → EReal) ![1, 1, 1, 2, 2] ![1, 1, 1, 2, 2] ![0, 0, 0, 0, 0] ![0, 0, 0, 0, 0] x init h hu = pool x := by
  funext i
  rw [reduceWindow_apply, hinit, fold4_eq_max4]
  rfl

end Cert.MaxPool

end
-- ==== Proof.Stack.lean ====
/-
  Pooling slice by slice. The [1, 32, 64, 256, 256] array viewed as a stack of 2048 slices has at (s, r, q)
  the entry (0, s / 64, s % 64, r, q); pooling every slice of the stack and viewing the pooled stack as
  [1, 32, 64, 128, 128] is pooling the array: both views keep the row-major order, and the window moves only
  along the last two axes.
-/
import proofs.«408236_j34402688041511_4_alg».proof.Proof.Fold

noncomputable section

namespace Cert.MaxPool

open Idealize.ShloMosaic Idealize.ShloMosaic.ValueIdx

/-- The stack of slices and the stack of pooled slices. -/
abbrev Stack : Shape := ⟨3, ![2048, 256, 256]⟩
abbrev StackPooled : Shape := ⟨3, ![2048, 128, 128]⟩

/-- Every slice of a stack pooled. -/
def poolStack (x : Stack.Idx → EReal) : StackPooled.Idx → EReal :=
  fun j => max4 fun a b => x (ix3 (j 0) (twice (j 1) a) (twice (j 2) b))

theorem pool_eq_poolStack (x : Whole.Idx → EReal) (h1 : Whole.ShapeCasts Stack) (h2 : StackPooled.ShapeCasts WholePooled) :
    shapeCast WholePooled (poolStack (shapeCast Stack x h1)) h2 = pool x := by
  funext i
  have h0 : (i 0).val < 1 := (i 0).isLt
  have h1' : (i 1).val < 32 := (i 1).isLt
  have h2' : (i 2).val < 64 := (i 2).isLt
  refine (shapeCast_apply _ h2 i (ix3 (⟨(i 1).val * 64 + (i 2).val, by omega⟩ : Fin 2048) (i 3) (i 4)) ?_).trans ?_
  · rw [Shape.rowMajor_val_three, Shape.rowMajor_val_five]
    show (((i 1).val * 64 + (i 2).val) * 128 + (i 3).val) * 128 + (i 4).val = ((((i 0).val * 32 + (i 1).val) * 64 + (i 2).val) * 128 + (i 3).val) * 128 + (i 4).val
    omega
  · have e : ∀ a b : Fin 2, shapeCast Stack x h1 (ix3 (⟨(i 1).val * 64 + (i 2).val, by omega⟩ : Fin 2048) (twice (i 3) a) (twice (i 4) b))
        = under x i a b := fun a b => by
      refine shapeCast_apply x h1 _ _ ?_
      rw [Shape.rowMajor_val_five, Shape.rowMajor_val_three]
      show ((((i 0).val * 32 + (i 1).val) * 64 + (i 2).val) * 256 + (2 * (i 3).val + a.val)) * 256 + (2 * (i 4).val + b.val) = (((i 1).val * 64 + (i 2).val) * 256 + (2 * (i 3).val + a.val)) * 256 + (2 * (i 4).val + b.val)
      omega
    show max4 (fun a b => shapeCast Stack x h1 (ix3 (⟨(i 1).val * 64 + (i 2).val, _⟩ : Fin 2048) (twice (i 3) a) (twice (i 4) b))) = max4 (under x i)
    congr 1
    funext a b
    exact e a b

end Cert.MaxPool

end
-- ==== Proof.KernelValue.lean ====
/-
  The kernel's run, read: the pooled stack of slices.
-/
import proofs.«408236_j34402688041511_4_alg».proof.Proof.Gen.KernelIdeal.Frame
import proofs.«408236_j34402688041511_4_alg».proof.Proof.Body
import proofs.«408236_j34402688041511_4_alg».proof.Proof.Stack
import Idealize.ShloMosaic.Lib.Pipeline.Value
import Idealize.ShloMosaic.Lib.StableHlo.Run
import Idealize.ShloMosaic.Lib.Tactic

noncomputable section

namespace Cert.MaxPool.Kernel

open Idealize.ShloMosaic Idealize.ShloMosaic.TcCoe Idealize.SL.Sem Idealize.ShloMosaic.ValueIdx
open Idealize.ShloMosaic.Pipeline (Dat)
open Cert.KernelIdeal Cert.KernelIdeal.Gen Cert.MaxPool

variable (m : (ℓ : Loc nD τ sig) → Buf (Elt Ideal) ℓ) (ρ : Dev nD → PrngReg)

theorem hz3 : (![0, 0, 0] : Fin 3 → Nat) = fun _ => 0 := funext fun a => by fin_cases a <;> rfl

/-- Grid point `t` works on slice `t`: both windows' blocks are at block index (t, 0, 0). -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block at point `t` is slice `t` of the stack. -/
theorem iblk_apply (c : Dev nD) (t : Fin cfg0.N) (y : S1x256x256.Idx) (k : S2048x256x256.Idx)
    (hk0 : (k 0).val = t.val) (hk1 : (k 1).val = (y 1).val) (hk2 : (k 2).val = (y 2).val) :
    (iblk m c 0 t : Vec Ideal S1x256x256 .f32) y = (V m c main_v0 : S2048x256x256.Idx → EReal) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 1 + 1 * (y 0).val = (k 0).val; have h0 : (y 0).val < 1 := (y 0).isLt; rw [e0, hk0]; omega
  | ⟨1, _⟩ => show win0_0.index t 1 * 256 + 1 * (y 1).val = (k 1).val; rw [e1, hk1]; omega
  | ⟨2, _⟩ => show win0_0.index t 2 * 256 + 1 * (y 2).val = (k 2).val; rw [e2, hk2]; omega

/-- If a loaded slice is slice `T` of a stack, its pooled values are those of slice `T` of the pooled stack. -/
theorem body_block (X : S2048x256x256.Idx → EReal) (v0 : Vec Ideal S1x256x256 .f32) (T : ℕ)
    (hv : ∀ (y : S1x256x256.Idx) (k : S2048x256x256.Idx), (k 0).val = T → (k 1).val = (y 1).val → (k 2).val = (y 2).val → v0 y = X k)
    (j : S1x128x128.Idx) (k : S2048x128x128.Idx) (hk0 : (k 0).val = T) (hk1 : (k 1).val = (j 1).val) (hk2 : (k 2).val = (j 2).val) :
    k0_pay1 (F := Ideal) v0 j = poolStack X k := by
  obtain ⟨z, p, q, rfl⟩ : ∃ (z : Fin 1) (p q : Fin 128), j = ix3 z p q := ⟨j 0, j 1, j 2, eq_ix3 j⟩
  rw [body_apply]
  unfold poolStack
  congr 1
  funext a b
  refine hv _ _ hk0 ?_ ?_
  · show 2 * (k 1).val + a.val = 2 * p.val + a.val
    have : (k 1).val = p.val := hk1
    omega
  · show 2 * (k 2).val + b.val = 2 * q.val + b.val
    have : (k 2).val = q.val := hk2
    omega

/-- What point `t` writes back is block `t` of the pooled stack. -/
theorem flushed_eq (c : Dev nD) (t : Fin cfg0.N) :
    (dats m 0 c).flushed 1 t = ((cfg0.win 1).blk t).view.read (Elt Ideal) (poolStack (V m c main_v0)) := by
  show (cfg0.win 1).cut (grid0.coords t) ((dats m 0 c).after 1 t) = _
  rw [after0_1]
  unfold out0_1
  rw [View.canon_unit_zero hz3]
  simp only [View.ld_unit_zero (S := S1x256x256) hz3]
  funext j
  show k0_pay1 (F := Ideal) (iblk m c 0 t) j = poolStack (V m c main_v0) (((cfg0.win 1).blk t).view.emb j)
  obtain ⟨-, -, -, e3, e4, e5⟩ := idx_facts t
  refine body_block (V m c main_v0) (iblk m c 0 t) t.val (fun y k h0 h1 h2 => iblk_apply m c t y k h0 h1 h2) j _ ?_ ?_ ?_
  · show win0_1.index t 0 * 1 + 1 * (j 0).val = t.val
    have h0 : (j 0).val < 1 := (j 0).isLt
    omega
  · show win0_1.index t 1 * 128 + 1 * (j 1).val = (j 1).val
    omega
  · show win0_1.index t 2 * 128 + 1 * (j 2).val = (j 2).val
    omega

/-- An index of the pooled stack is in point `t`'s block iff each coordinate is in the block's range on its axis. -/
theorem mem_blk (t : Fin cfg0.N) (i : S2048x128x128.Idx) :
    i ∈ ((cfg0.win 1).blk t).view.set ↔ ∀ a : Fin 3, win0_1.index t a * S1x128x128.size a ≤ (i a).val ∧ (i a).val < win0_1.index t a * S1x128x128.size a + S1x128x128.size a := by
  show i ∈ ((View.whole main_v1).slice (win0_1.rect t)).set ↔ _
  rw [View.set_slice_whole, Rect.mem_set_unit]
  exact Iff.rfl

/-- Slice `s` of the pooled stack is written by point `s`. -/
theorem cover (i : S2048x128x128.Idx) :
    ∃ t : Fin cfg0.N, (cfg0.win 1).flush t = true ∧ i ∈ ((cfg0.win 1).blk t).view.set := by
  have hN : cfg0.N = 2048 := N_0
  have hi0 : (i 0).val < 2048 := (i 0).isLt
  have hi1 : (i 1).val < 128 := (i 1).isLt
  have hi2 : (i 2).val < 128 := (i 2).isLt
  refine ⟨⟨(i 0).val, by rw [hN]; exact hi0⟩, flush0_1 _, ?_⟩
  rw [mem_blk]
  obtain ⟨-, -, -, e3, e4, e5⟩ := idx_facts ⟨(i 0).val, by rw [hN]; exact hi0⟩
  intro a
  match a with
  | ⟨0, _⟩ =>
    show win0_1.index _ 0 * 1 ≤ (i 0).val ∧ (i 0).val < win0_1.index _ 0 * 1 + 1
    rw [e3]; show (i 0).val * 1 ≤ (i 0).val ∧ (i 0).val < (i 0).val * 1 + 1; omega
  | ⟨1, _⟩ =>
    show win0_1.index _ 1 * 128 ≤ (i 1).val ∧ (i 1).val < win0_1.index _ 1 * 128 + 128
    rw [e4]; omega
  | ⟨2, _⟩ =>
    show win0_1.index _ 2 * 128 ≤ (i 2).val ∧ (i 2).val < win0_1.index _ 2 * 128 + 128
    rw [e5]; omega

/-- After the region the output array holds the pooled stack. -/
theorem final (c : Dev nD) : (dats m 0 c).arrAt 1 cfg0.N = poolStack (V m c main_v0) :=
  (dats m 0 c).arrAt_eq_of_cover 1 (poolStack (V m c main_v0)) (fun t _ => flushed_eq m c t) cover

/-- The stack the region finds: the argument reshaped. -/
theorem V_main_v0 (c : Dev nD) :
    (V m c main_v0 : S2048x256x256.Idx → EReal)
      = shapeCast S2048x256x256 (m ((c : Thread nD τ).loc main_arg0)) Facts₀.shapeCasts_S1x32x64x256x256_S2048x256x256 := by
  show StableHlo.after hostOps0 (fun b => m (c, b)) (Proc.devRef .tc main_v0) = _
  after_results
  rfl

/-- The first result after the run. -/
theorem tail_v2 (c : Dev nD) :
    (Pipeline.afterTail₀ cfgs (dats m) 0 (V0 m) [hostOps1] c main_v2 : S1x32x64x128x128.Idx → EReal)
      = shapeCast S1x32x64x128x128 (poolStack (V m c main_v0)) Facts₀.shapeCasts_S2048x128x128_S1x32x64x128x128 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = poolStack (V m c main_v0) :=
    (Pipeline.withArrays_arr spec0 launch0.win.arr_inj c _ _ 1).trans (final m c)
  rw [hw]
  rfl

/-- Viewed in five axes, the pooled stack of the reshaped argument is the pooled argument. -/
theorem result_v2 (c : Dev nD) :
    (Pipeline.afterTail₀ cfgs (dats m) 0 (V0 m) [hostOps1] c main_v2 : S1x32x64x128x128.Idx → EReal)
      = pool (m ((c : Thread nD τ).loc main_arg0)) := by
  rw [tail_v2, V_main_v0]
  exact pool_eq_poolStack _ _ _

/-- The second result is the constant the program writes last. -/
theorem result_c (c : Dev nD) :
    Pipeline.afterTail₀ cfgs (dats m) 0 (V0 m) [hostOps1] c main_c = constantI S_ 32 256#32 := by
  unfold Pipeline.afterTail₀
  show StableHlo.after hostOps1 _ (Proc.devRef .tc main_c) = _
  after_results

/-- The kernel's run, read: the first result is the pooled argument, the second the constant, the argument
    is unchanged. -/
theorem run : θ_run defs (onTc (τ := τ) (main (F := Ideal))) ⟨m, fun _ => 0, ρ⟩ fun r => ∀ c : Dev nD,
      r.2.mem ((c.tc : Thread nD τ).loc main_v2) = pool (m ((c.tc : Thread nD τ).loc main_arg0))
      ∧ r.2.mem ((c.tc : Thread nD τ).loc main_c) = constantI S_ 32 256#32
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_v2 m c),
       ((h c).2 main_c (Pipeline.mem_restRefs_of main_c (by decide) (by decide))).trans (result_c m c),
       ((h c).2 main_arg0 (Pipeline.mem_restRefs_of main_arg0 (by decide) (by decide))).trans (W_main_arg0 m (dats m) c)⟩)
    (run_main m ρ)

end Cert.MaxPool.Kernel

end
-- ==== Proof.RefValue.lean ====
/-
  The reference's run, read: a windowed maximum from −∞ over [1, 1, 1, 2, 2] windows at stride [1, 1, 1, 2, 2],
  which is the pooled argument. The initial value is the scalar −∞, broadcast to a scalar.
-/
import proofs.«408236_j34402688041511_4_alg».proof.Proof.Gen.ReferenceIdeal.Read
import proofs.«408236_j34402688041511_4_alg».proof.Proof.Fold

noncomputable section

namespace Cert.MaxPool.Reference

open Idealize.ShloMosaic Idealize.ShloMosaic.TcCoe Idealize.SL.Sem Idealize.ShloMosaic.ValueIdx
open Cert.ReferenceIdeal Cert.ReferenceIdeal.Gen Cert.MaxPool

/-- The fold's initial value is the least extended real. -/
theorem init_eq_bot (z : S_.Idx) :
    broadcastInDim S_ ![] bcast_S_S_ (constant (F := Ideal) S_ .f32 0xFF800000#32) z = (⊥ : EReal) :=
  (Cert.ReferenceIdeal.Read.val_main_v0_apply (F := Ideal) z).trans
    ((Cert.ReferenceIdeal.Read.val_main_cst_apply (F := Ideal) _).trans negInf_eq_bot)

/-- The reference's result term is the pooled argument. -/
theorem result_eq (x : S1x32x64x256x256.Idx → EReal) :
    Host.reduceWindow (FloatOps.maximumf (F := Ideal) (φ := .f32)) ![1, 1, 1, 2, 2] ![1, 1, 1, 2, 2] ![0, 0, 0, 0, 0] ![0, 0, 0, 0, 0] x
        (broadcastInDim S_ ![] bcast_S_S_ (constant (F := Ideal) S_ .f32 0xFF800000#32))
        reduceWindows_S1x32x64x256x256_S1x32x64x128x128_w1s1p0_0_w1s1p0_0_w1s1p0_0_w2s2p0_0_w2s2p0_0 h_S_
      = pool x :=
  reduceWindow_max x _ init_eq_bot _ _

end Cert.MaxPool.Reference

end
-- ==== Proof.lean ====
/-
  Max pooling with a 2 × 2 window and stride 2 over the last two axes of a [1, 32, 64, 256, 256] array.

  The kernel views the array as a stack of 2048 slices of 256 × 256, and on each slice pairs the columns and
  takes each pair's maximum, then pairs the rows of that and takes each pair's maximum, both from −∞; it views
  the pooled stack as [1, 32, 64, 128, 128]. The reference folds the maximum from −∞ over each 2 × 2 window.
  On the extended reals both give, at every output index, the greatest of the window's four entries: −∞ is
  the least element and `max` is associative, so neither the order nor the grouping matters, and no entry
  need be finite. The second result of both programs is the same integer constant.
-/
import proofs.«408236_j34402688041511_4_alg».proof.Defs
import proofs.«408236_j34402688041511_4_alg».proof.Proof.Gen.Kernel
import proofs.«408236_j34402688041511_4_alg».proof.Proof.Gen.Kernel.Skeleton
import proofs.«408236_j34402688041511_4_alg».proof.Proof.Gen.Kernel.Launch
import proofs.«408236_j34402688041511_4_alg».proof.Proof.Gen.Kernel.Points
import proofs.«408236_j34402688041511_4_alg».proof.Proof.Gen.Kernel.Frame
import proofs.«408236_j34402688041511_4_alg».proof.Proof.Gen.KernelIdeal
import proofs.«408236_j34402688041511_4_alg».proof.Proof.Gen.KernelIdeal.Skeleton
import proofs.«408236_j34402688041511_4_alg».proof.Proof.Gen.KernelIdeal.Launch
import proofs.«408236_j34402688041511_4_alg».proof.Proof.Gen.KernelIdeal.Points
import proofs.«408236_j34402688041511_4_alg».proof.Proof.Gen.KernelIdeal.Frame
import proofs.«408236_j34402688041511_4_alg».proof.Proof.Gen.ReferenceIdeal
import proofs.«408236_j34402688041511_4_alg».proof.Proof.Gen.ReferenceIdeal.Run
import proofs.«408236_j34402688041511_4_alg».proof.Proof.Gen.Pre_finite_inputs
import proofs.«408236_j34402688041511_4_alg».proof.Proof.KernelValue
import proofs.«408236_j34402688041511_4_alg».proof.Proof.RefValue
import Idealize.ShloMosaic.Adequacy
import Idealize.ShloMosaic.Init

noncomputable section

namespace Cert.Proof

open Idealize.ShloMosaic Idealize.SL.Sem

/-- The word-level kernel runs and leaves its argument as it was. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its argument as it was: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the pooled argument and the same constant. -/
theorem algebraic : Cert.algebraic_KernelIdeal_ReferenceIdeal := by
  intro m ρ m' ρ' _ hagree
  refine ⟨fun c => Cert.MaxPool.pool (m ((c.tc : Thread Cert.KernelIdeal.nD Cert.KernelIdeal.τ).loc Cert.KernelIdeal.main_arg0)),
    fun c => constantI Cert.KernelIdeal.S_ 32 256#32, Cert.MaxPool.Kernel.run m ρ, ?_⟩
  refine (θ_run Cert.ReferenceIdeal.defs _ _).mono (fun _ h c => ⟨(h c).1.trans ?_, (h c).2.1, (h c).2.2⟩)
    (Cert.ReferenceIdeal.Value.run (F := Ideal) m' ρ')
  rw [hagree c]
  exact Cert.MaxPool.Reference.result_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
